-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S1048576 : Shape := ⟨1, ![1048576]⟩
abbrev S64 : Shape := ⟨1, ![64]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel

variable [Facts]

def fn {F : FTy → Type} [FloatOps F] (main_arg0 : FVec F S1048576x64 .f32) (main_arg1 : IVec S1048576 32) (main_arg2 : IVec S64 32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  main_v3
-- ==== Kernel.lean ====
abbrev S1048576x64 : Shape := ⟨2, ![1048576, 64]⟩
abbrev S1048576 : Shape := ⟨1, ![1048576]⟩
abbrev S64 : Shape := ⟨1, ![64]⟩
abbrev S1x1048576 : Shape := ⟨2, ![1, 1048576]⟩
abbrev S2x64x64 : Shape := ⟨3, ![2, 64, 64]⟩
abbrev S1x64x64 : Shape := ⟨3, ![1, 64, 64]⟩
abbrev S64x64 : Shape := ⟨2, ![64, 64]⟩
abbrev S64x1 : Shape := ⟨2, ![64, 1]⟩
abbrev S32768x64 : Shape := ⟨2, ![32768, 64]⟩
abbrev S1x32768 : Shape := ⟨2, ![1, 32768]⟩
abbrev S64x32768 : Shape := ⟨2, ![64, 32768]⟩

abbrev nBuf : Space → Nat
  | .hbm => 15
  | .vmem => 7
  | .smem => 0
  | _ => 0

abbrev bufTy : (tb : Table) → Fin (tcTables nBuf tb) → BufTy
  | .hbm, ⟨0, _⟩ => ⟨S1048576x64, .f32⟩
  | .hbm, ⟨1, _⟩ => ⟨S1048576, .i32⟩
  | .hbm, ⟨2, _⟩ => ⟨S64, .i32⟩
  | .hbm, ⟨3, _⟩ => ⟨S1048576, .bf16⟩
  | .hbm, ⟨4, _⟩ => ⟨S1x1048576, .bf16⟩
  | .hbm, ⟨5, _⟩ => ⟨S2x64x64, .f32⟩
  | .hbm, ⟨6, _⟩ => ⟨S1x64x64, .f32⟩
  | .hbm, ⟨7, _⟩ => ⟨S64x64, .f32⟩
  | .hbm, ⟨8, _⟩ => ⟨S1x64x64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S64x1, .f32⟩
  | .hbm, ⟨13, _⟩ => ⟨S64x64, .f32⟩
  | .hbm, ⟨14, _⟩ => ⟨S64x64, .f32⟩
  | .local _ .vmem, ⟨0, _⟩ => ⟨S32768x64, .f32⟩
  | .local _ .vmem, ⟨1, _⟩ => ⟨S32768x64, .f32⟩
  | .local _ .vmem, ⟨2, _⟩ => ⟨S1x32768, .bf16⟩
  | .local _ .vmem, ⟨3, _⟩ => ⟨S1x32768, .bf16⟩
  | .local _ .vmem, ⟨4, _⟩ => ⟨S1x64x64, .f32⟩
  | .local _ .vmem, ⟨5, _⟩ => ⟨S1x64x64, .f32⟩
  | .local _ .vmem, ⟨6, _⟩ => ⟨S64x64, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v21 : BitVec 1 := Scalar.cmpi .eq arg1 c15_i32
  let v22 : BitVec 32 := Scalar.extui v21
  let c0_i32_8 : BitVec 32 := 0#32
  let v23 : BitVec 1 := Scalar.cmpi .ne v22 c0_i32_8
  v23

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32768x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S1048576_S1x1048576 : S1048576.ShapeCasts S1x1048576
  slices_S2x64x64_S1x64x64_0_0_0 : S2x64x64.Slices ![0, 0, 0] S1x64x64
  shapeCasts_S1x64x64_S64x64 : S1x64x64.ShapeCasts S64x64
  slices_S2x64x64_S1x64x64_1_0_0 : S2x64x64.Slices ![1, 0, 0] S1x64x64
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x32768_S1x32768_0_0 : ∀ a, (![0, 0] : Fin 2 → Nat) a + S1x32768.size a ≤ S1x32768.size a
  h_S1x32768 : 0 < S1x32768.numel
  shapeCasts_S1x32768_S1x32768 : S1x32768.ShapeCasts S1x32768
  iota_S64x1_d0_w32 : S64x1.Iotas .tc 32 [0]
  broadcasts_S64x1_S64x32768 : S64x1.Broadcasts S64x32768
  broadcasts_S1x32768_S64x32768 : S1x32768.Broadcasts S64x32768
  natLt_1_32 : 1 < 32
  bitsLt_bf16_f32 : FTy.bits .bf16 < FTy.bits .f32
  inb_S32768x64_S32768x64_0_0 : ∀ a, (![0, 0] : Fin 2 → Nat) a + S32768x64.size a ≤ S32768x64.size a
  h_S32768x64 : 0 < S32768x64.numel
  inb_S1x64x64_S1x64x64_0_0_0 : ∀ a, (![0, 0, 0] : Fin 3 → Nat) a + S1x64x64.size a ≤ S1x64x64.size a
  h_S1x64x64 : 0 < S1x64x64.numel
  shapeCasts_S64x64_S1x64x64 : S64x64.ShapeCasts S1x64x64
  dot_S64x32768_S32768x64_S64x64_1_0_0_1_n_n_wf : DotDims.WF S64x32768 S32768x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32768x64.size a ≤ S1048576x64.size a
  hwx0_0 : ∀ i : grid0.Coords, EltTy.bits .f32 = 32 ∨ (Rect.block (s := S1048576x64) S32768x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32768.size a ≤ S1x1048576.size a
  hwx0_1 : ∀ i : grid0.Coords, EltTy.bits .bf16 = 32 ∨ (Rect.block (s := S1x1048576) S1x32768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S2x64x64.size a
  hwx0_2 : ∀ i : grid0.Coords, EltTy.bits .f32 = 32 ∨ (Rect.block (s := S2x64x64) S1x64x64.size (cc0_transform_2 i) (hinb0_2 i)).WholeWords (EltTy.packing .f32)

variable [Facts₀]

def dot_S64x32768_S32768x64_S64x64_1_0_0_1_n_n : DotDims S64x32768 S32768x64 S64x64 where
  lhsContracting := [1]
  rhsContracting := [0]
  lhsNonContracting := [0]
  rhsNonContracting := [1]
  lhsBatch := []
  rhsBatch := []
  wf := dot_S64x32768_S32768x64_S64x64_1_0_0_1_n_n_wf

abbrev win0_0 : Pipeline.Window sig grid0 :=
  Pipeline.Window.ofSpec (Memref.whole main_arg0) S32768x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1048576x64 : Shape := ⟨2, ![1048576, 64]⟩
abbrev S1048576 : Shape := ⟨1, ![1048576]⟩
abbrev S64 : Shape := ⟨1, ![64]⟩
abbrev S_ : Shape := ⟨0, ![]⟩
abbrev S64x64 : Shape := ⟨2, ![64, 64]⟩
abbrev S1048576x1 : Shape := ⟨2, ![1048576, 1]⟩
abbrev S64x1 : Shape := ⟨2, ![64, 1]⟩

abbrev nBuf : Space → Nat
  | .hbm => 11
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S1048576, .i32⟩
  | .hbm, ⟨2, _⟩ => ⟨S64, .i32⟩
  | .hbm, ⟨3, _⟩ => ⟨S_, .f32⟩
  | .hbm, ⟨4, _⟩ => ⟨S64x64, .f32⟩
  | .hbm, ⟨5, _⟩ => ⟨S1048576x1, .i32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S64x64, .f32⟩
  | .hbm, ⟨10, _⟩ => ⟨S64x64, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  bcast_S1048576_S1048576x1_0 : S1048576.BroadcastsInDim S1048576x1 (![0] : Fin 1 → Fin S1048576x1.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S64x64_S1048576x1_S1048576x64_1_0_0_1_wf : ScatterDims.WF S64x64 S1048576x1 S1048576x64 [1] [0] [0] 1

variable [Facts₀]

def scatter_S64x64_S1048576x1_S1048576x64_1_0_0_1 : ScatterDims S64x64 S1048576x1 S1048576x64 where
  updateWindowDims := [1]
  insertedWindowDims := [0]
  scatterDimsToOperandDims := [0]
  indexVectorDim := 1
  wf := scatter_S64x64_S1048576x1_S1048576x64_1_0_0_1_wf

class Facts : Prop extends Facts₀ where

variable [Facts]
-- ==== Proof.CaseValues.lean ====
/-
  What the body leaves behind in each of its three control cases, as values.

  A half's first block (case A) zeroes the accumulator, reads the zeros back and stores the block's update of them;
  a middle block (case B) stores the update of what the block before left; a half's last block (case C) does the same
  and then copies the new accumulator into the output block. In every case the accumulator ends holding the
  accumulation payload of the block's ids, the block of `x` and the accumulator it started from (zeros in case A),
  and in case C the output block holds that accumulator under a leading unit axis. The stores are whole-buffer stores
  at zero offsets, so each buffer's final contents are the last store's payload, and each load reads its buffer's
  contents as they are.
-/
import proofs.«415302_j49555332661495_3_alg».proof.Proof.Gen.KernelIdeal.Frame
import Idealize.ShloMosaic.Lib.Pipeline.Value
import Idealize.ShloMosaic.Lib.Tactic

set_option maxRecDepth 16384

noncomputable section

namespace Cert.KernelIdeal.CaseValues

open Cert.KernelIdeal Cert.KernelIdeal.Gen Idealize.ShloMosaic Idealize.ShloMosaic.TcCoe Idealize.ShloMosaic.Tactic Idealize.SL.Sem

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- Case A: the accumulator ends at the update of the zeros it was reset to. -/
theorem acc_first (c : Dev nD) (i : grid0.Coords) (a2 : Memref sig .tc .vmem S32768x64 .f32) (h2 : a2.IsWhole)
    (a3 : Memref sig .tc .vmem S1x32768 .bf16) (h3 : a3.IsWhole) (a4 : Memref sig .tc .vmem S1x64x64 .f32) (h4 : a4.IsWhole)
    (a5 : Memref sig .tc .vmem S64x64 .f32) (h5 : a5.IsWhole) (hc0 : cond0_0 i) (hc1 : ¬cond0_1 i)
    (x0 : Vec F S32768x64 .f32) (x1 : Vec F S1x32768 .bf16) :
    sout0_A_0 c i a2 h2 a3 h3 a4 h4 a5 h5 hc0 hc1 x0 x1 = k0_pay2 x1 x0 k0_pay1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S64x64) zeros2, View.readCov_unit_zero (S := S64x64) _ zeros2]
  simp only [View.readAt_eq_ld, h2.read_unread, h3.read_unread, View.ld_unit_zero (S := S32768x64) zeros2,
    View.ld_unit_zero (S := S1x32768) zeros2]

/-- Case B: the accumulator ends at the update of what the block before left. -/
theorem acc_middle (c : Dev nD) (i : grid0.Coords) (a2 : Memref sig .tc .vmem S32768x64 .f32) (h2 : a2.IsWhole)
    (a3 : Memref sig .tc .vmem S1x32768 .bf16) (h3 : a3.IsWhole) (a4 : Memref sig .tc .vmem S1x64x64 .f32) (h4 : a4.IsWhole)
    (a5 : Memref sig .tc .vmem S64x64 .f32) (h5 : a5.IsWhole) (hc0 : ¬cond0_0 i) (hc1 : ¬cond0_1 i)
    (x0 : Vec F S32768x64 .f32) (x1 : Vec F S1x32768 .bf16) (xs0 : Vec F S64x64 .f32) :
    sout0_B_0 c i a2 h2 a3 h3 a4 h4 a5 h5 hc0 hc1 x0 x1 xs0 = k0_pay2 x1 x0 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero zeros2]
  simp only [View.readAt_eq_ld, h2.read_unread, h3.read_unread, h5.read_unread, View.ld_unit_zero (S := S32768x64) zeros2,
    View.ld_unit_zero (S := S1x32768) zeros2, View.ld_unit_zero (S := S64x64) zeros2]

/-- Case C: the accumulator likewise, -/
theorem acc_last (c : Dev nD) (i : grid0.Coords) (a2 : Memref sig .tc .vmem S32768x64 .f32) (h2 : a2.IsWhole)
    (a3 : Memref sig .tc .vmem S1x32768 .bf16) (h3 : a3.IsWhole) (a4 : Memref sig .tc .vmem S1x64x64 .f32) (h4 : a4.IsWhole)
    (a5 : Memref sig .tc .vmem S64x64 .f32) (h5 : a5.IsWhole) (hc0 : ¬cond0_0 i) (hc1 : cond0_1 i)
    (x0 : Vec F S32768x64 .f32) (x1 : Vec F S1x32768 .bf16) (xs0 : Vec F S64x64 .f32) :
    sout0_C_0 c i a2 h2 a3 h3 a4 h4 a5 h5 hc0 hc1 x0 x1 xs0 = k0_pay2 x1 x0 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero zeros2]
  simp only [View.readAt_eq_ld, h2.read_unread, h3.read_unread, h5.read_unread, View.ld_unit_zero (S := S32768x64) zeros2,
    View.ld_unit_zero (S := S1x32768) zeros2, View.ld_unit_zero (S := S64x64) zeros2]

/-- and the output block holds that accumulator, read back after its store, under the leading unit axis. -/
theorem out_last (c : Dev nD) (i : grid0.Coords) (a2 : Memref sig .tc .vmem S32768x64 .f32) (h2 : a2.IsWhole)
    (a3 : Memref sig .tc .vmem S1x32768 .bf16) (h3 : a3.IsWhole) (a4 : Memref sig .tc .vmem S1x64x64 .f32) (h4 : a4.IsWhole)
    (a5 : Memref sig .tc .vmem S64x64 .f32) (h5 : a5.IsWhole) (hc0 : ¬cond0_0 i) (hc1 : cond0_1 i)
    (x0 : Vec F S32768x64 .f32) (x1 : Vec F S1x32768 .bf16) (xs0 : Vec F S64x64 .f32) :
    out0_C_2 c i a2 h2 a3 h3 a4 h4 a5 h5 hc0 hc1 x0 x1 xs0 = k0_pay3 (k0_pay2 x1 x0 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero zeros3, View.readCov_unit_zero (S := S64x64) _ zeros2]
  simp only [View.readAt_eq_ld, h2.read_unread, h3.read_unread, h5.read_unread, View.ld_unit_zero (S := S32768x64) zeros2,
    View.ld_unit_zero (S := S1x32768) zeros2, View.ld_unit_zero (S := S64x64) zeros2]

end Cert.KernelIdeal.CaseValues

end
-- ==== Proof.BodyValue.lean ====
/-
  What one run of the kernel body computes, read at an index over the extended reals.

  The body builds a 64 × 32768 membership matrix — entry `(b, k)` is `1` when the block's `k`-th row has segment id
  `b` and `0` otherwise: the row of ids, already converted to numbers, is compared for equality with the column
  `0, 1, …, 63` — multiplies it into the block of `x` (32768 × 64) and adds the product to the accumulator. A change
  of float format is the identity here, the product into a zero accumulator is the plain sum over the block's rows, so
  entry `(b, d)` of the new accumulator is the old entry plus `∑ k, [b = id k] · x k d`.
-/
import proofs.«415302_j49555332661495_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx

/-! ## The matrix product's operand indices -/

theorem lhs_row (j : S64x64.Idx) (k : dot_S64x32768_S32768x64_S64x64_1_0_0_1_n_n.contr.Idx) :
    (dot_S64x32768_S32768x64_S64x64_1_0_0_1_n_n.lhsIdx j k 0).val = (j 0).val := by
  unfold DotDims.lhsIdx
  rw [dif_neg (show ¬(0 : Fin S64x32768.rank) ∈ dot_S64x32768_S32768x64_S64x64_1_0_0_1_n_n.lhsBatch by decide),
    dif_pos (show (0 : Fin S64x32768.rank) ∈ dot_S64x32768_S32768x64_S64x64_1_0_0_1_n_n.lhsNonContracting by decide)]
  rfl

theorem lhs_col (j : S64x64.Idx) (k : dot_S64x32768_S32768x64_S64x64_1_0_0_1_n_n.contr.Idx) :
    (dot_S64x32768_S32768x64_S64x64_1_0_0_1_n_n.lhsIdx j k 1).val = (k ⟨0, Nat.one_pos⟩).val :=
  dot_S64x32768_S32768x64_S64x64_1_0_0_1_n_n.lhsIdx_val_of_single rfl j k

theorem rhs_row (j : S64x64.Idx) (k : dot_S64x32768_S32768x64_S64x64_1_0_0_1_n_n.contr.Idx) :
    (dot_S64x32768_S32768x64_S64x64_1_0_0_1_n_n.rhsIdx j k 0).val = (k ⟨0, Nat.one_pos⟩).val :=
  dot_S64x32768_S32768x64_S64x64_1_0_0_1_n_n.rhsIdx_val_of_single rfl j k

theorem rhs_col (j : S64x64.Idx) (k : dot_S64x32768_S32768x64_S64x64_1_0_0_1_n_n.contr.Idx) :
    (dot_S64x32768_S32768x64_S64x64_1_0_0_1_n_n.rhsIdx j k 1).val = (j 1).val := by
  unfold DotDims.rhsIdx
  rw [dif_neg (show ¬(1 : Fin S32768x64.rank) ∈ dot_S64x32768_S32768x64_S64x64_1_0_0_1_n_n.rhsBatch by decide),
    dif_pos (show (1 : Fin S32768x64.rank) ∈ dot_S64x32768_S32768x64_S64x64_1_0_0_1_n_n.rhsNonContracting by decide)]
  rfl

/-- The product into the zero accumulator at `(b, d)`: the sum over the 32768 contracted rows. -/
theorem matmul_at (L : FVec Ideal S64x32768 .bf16) (R : FVec Ideal S32768x64 .bf16) (b d : Fin 64) :
    matmul dot_S64x32768_S32768x64_S64x64_1_0_0_1_n_n none L R (constant S64x64 .f32 0x00000000#32) (ix2 b d)
      = ∑ k : Fin 32768, L (ix2 b k) * R (ix2 k d) := by
  simp only [matmul]
  rw [Ideal.matmul_constant_zero_apply,
    ← Equiv.sum_comp (contrEquiv1 dot_S64x32768_S32768x64_S64x64_1_0_0_1_n_n 32768 rfl rfl).symm]
  refine Finset.sum_congr rfl fun k _ => ?_
  have hk := contrEquiv1_symm_val dot_S64x32768_S32768x64_S64x64_1_0_0_1_n_n 32768 rfl rfl k
  have hl : dot_S64x32768_S32768x64_S64x64_1_0_0_1_n_n.lhsIdx (ix2 b d)
      ((contrEquiv1 dot_S64x32768_S32768x64_S64x64_1_0_0_1_n_n 32768 rfl rfl).symm k) = ix2 b k :=
    funext fun a => Fin.ext (by
      match a with
      | ⟨0, _⟩ => exact lhs_row _ _
      | ⟨1, _⟩ => exact (lhs_col _ _).trans hk)
  have hr : dot_S64x32768_S32768x64_S64x64_1_0_0_1_n_n.rhsIdx (ix2 b d)
      ((contrEquiv1 dot_S64x32768_S32768x64_S64x64_1_0_0_1_n_n 32768 rfl rfl).symm k) = ix2 k d :=
    funext fun a => Fin.ext (by
      match a with
      | ⟨0, _⟩ => exact (rhs_row _ _).trans hk
      | ⟨1, _⟩ => exact rhs_col _ _)
  rw [hl, hr]

/-! ## The membership matrix -/

/-- The column `0 … 63` broadcast along the rows reads its row coordinate. -/
theorem column_at (v : (⟨2, ![64, 1]⟩ : Shape).Idx → EReal) (h : (⟨2, ![64, 1]⟩ : Shape).Broadcasts ⟨2, ![64, 32768]⟩)
    (b : Fin 64) (k : Fin 32768) : broadcastTo ⟨2, ![64, 32768]⟩ v h (ix2 b k) = v (ix2 b (0 : Fin 1)) := by
  refine broadcastTo_apply v h (ix2 b k) (ix2 b (0 : Fin 1)) fun ax => ?_
  match ax with
  | ⟨0, _⟩ => rfl
  | ⟨1, _⟩ => rfl

/-- Entry `(b, k)` of the membership matrix: `1` when the number `b` equals the `k`-th id of the loaded row, else `0`. -/
theorem member_at (v3 : Vec Ideal S1x32768 .bf16) (b : Fin 64) (k : Fin 32768) :
    (truncf .bf16 (sitofp .f32 (extui 32 (cmpf .oeq
        (broadcastTo S64x32768 (sitofp .bf16 (iota .tc S64x1 32 [0] iota_S64x1_d0_w32) : FVec Ideal S64x1 .bf16) broadcasts_S64x1_S64x32768)
        (broadcastTo S64x32768 (shapeCast S1x32768 v3 shapeCasts_S1x32768_S1x32768) broadcasts_S1x32768_S64x32768))
        natLt_1_32) : FVec Ideal S64x32768 .f32) bitsLt_bf16_f32 : FVec Ideal S64x32768 .bf16) (ix2 b k)
      = if ((b.val : ℝ) : EReal) = v3 (ix2 (0 : Fin 1) k) then 1 else 0 := by
  rw [truncf_apply, sitofp_apply, extui_apply, cmpf_apply, column_at, broadcastTo_1b_ab_apply, shapeCast_self,
    sitofp_apply, iota_single_apply]
  show ((((Ideal.cmp .oeq (((BitVec.ofNat 32 b.val).toInt : ℝ) : EReal) (v3 (ix2 (0 : Fin 1) k))).setWidth 32).toInt : ℝ) : EReal) = _
  have hb : (BitVec.ofNat 32 b.val).toInt = (b.val : ℤ) := by
    have hlt := b.isLt
    have hm : b.val % 2 ^ 32 = b.val := Nat.mod_eq_of_lt (by omega)
    rw [BitVec.toInt_eq_toNat_cond, BitVec.toNat_ofNat, hm, if_pos (by omega)]
  rw [hb, Int.cast_natCast]
  unfold Ideal.cmp
  have one : ((BitVec.ofBool true).setWidth 32).toInt = 1 := by decide
  have zero : ((BitVec.ofBool false).setWidth 32).toInt = 0 := by decide
  by_cases h : ((b.val : ℝ) : EReal) = v3 (ix2 (0 : Fin 1) k)
  · rw [if_pos h, decide_eq_true h, one, Int.cast_one, EReal.coe_one]
  · rw [if_neg h, decide_eq_false h, zero, Int.cast_zero, EReal.coe_zero]

/-! ## The stores' payloads -/

/-- The reset stores zeros. -/
theorem reset_at (i : S64x64.Idx) : k0_pay1 (F := Ideal) i = 0 := by
  unfold k0_pay1
  rw [shapeCast_self]
  exact Ideal.ofBits_zero_f32

/-- THE ACCUMULATION at `(b, d)`: the old accumulator's entry plus the block's membership-weighted row sum. -/
theorem accumulate_at (v3 : Vec Ideal S1x32768 .bf16) (v13 : Vec Ideal S32768x64 .f32) (v16 : Vec Ideal S64x64 .f32)
    (b d : Fin 64) :
    k0_pay2 v3 v13 v16 (ix2 b d)
      = v16 (ix2 b d) + ∑ k : Fin 32768, (if ((b.val : ℝ) : EReal) = v3 (ix2 (0 : Fin 1) k) then 1 else 0) * v13 (ix2 k d) := by
  unfold k0_pay2
  dsimp only
  rw [shapeCast_self, addf_apply, matmul_at]
  refine congrArg (v16 (ix2 b d) + ·) (Finset.sum_congr rfl fun k _ => ?_)
  rw [member_at, truncf_apply]

/-- The last block of a half copies the accumulator out under a new leading unit axis. -/
theorem writeout_at (v24 : Vec Ideal S64x64 .f32) (u : Fin 1) (b d : Fin 64) :
    k0_pay3 v24 (ix3 u b d) = v24 (ix2 b d) := by
  unfold k0_pay3
  exact shapeCast_ab_1ab_apply v24 shapeCasts_S64x64_S1x64x64 u b d

end Cert.KernelIdeal.BodyValue

end
-- ==== Proof.SegmentSum.lean ====
/-
  The arithmetic of a segment sum accumulated block by block.

  Row `n` of `x` (64 features) carries a segment id; segment `b`'s sum of feature `d` is
  `∑ n, [id n = b] · x n d` over all 1048576 rows. The kernel does not form this sum at once: it walks 32 blocks of
  32768 rows, adding each block's partial sum into a running accumulator that is set back to zero at blocks 0 and 16,
  and the two accumulators (after blocks 15 and 31) are added at the end. Over the extended reals addition is
  commutative and associative, so the running accumulator after block `t` is the sum over all rows from the last
  reset up to the end of block `t` (`accUpTo`), and the two halves add up to the whole sum (`accUpTo_total`).
  Nothing here needs the entries to be finite: a weight is `0` or `1`, and `0 · x = 0`, `1 · x = x` for every
  extended real.
-/
import Idealize.ShloMosaic.PureOps.Ideal
import Idealize.ShloMosaic.Lib.ValueIdx
import Mathlib.Algebra.BigOperators.Group.Finset.Basic
import Mathlib.Algebra.BigOperators.Fin

noncomputable section

namespace Cert.SegMean

open Idealize.ShloMosaic Idealize.ShloMosaic.ValueIdx

/-- The membership weight of a row whose segment id is `z` in segment `b`: one or zero. -/
def hot (z : ℤ) (b : Fin 64) : EReal := if z = (b.val : ℤ) then 1 else 0

/-- Row `n`'s segment id, read signed (rows past the array: `0`, never summed). -/
def segAt (seg : (⟨1, ![1048576]⟩ : Shape).Idx → BitVec 32) (n : ℕ) : ℤ :=
  if h : n < 1048576 then (seg (ix1 ⟨n, h⟩)).toInt else 0

/-- Feature `d` of row `n` (rows past the array: `0`, never summed). -/
def rowAt (X : (⟨2, ![1048576, 64]⟩ : Shape).Idx → EReal) (n : ℕ) (d : Fin 64) : EReal :=
  if h : n < 1048576 then X (ix2 ⟨n, h⟩ d) else 0

theorem segAt_lt (seg : (⟨1, ![1048576]⟩ : Shape).Idx → BitVec 32) {n : ℕ} (h : n < 1048576) :
    segAt seg n = (seg (ix1 ⟨n, h⟩)).toInt := dif_pos h

theorem rowAt_lt (X : (⟨2, ![1048576, 64]⟩ : Shape).Idx → EReal) {n : ℕ} (h : n < 1048576) (d : Fin 64) :
    rowAt X n d = X (ix2 ⟨n, h⟩ d) := dif_pos h

/-- Row `n`'s contribution to segment `b`, feature `d`. -/
def term (X : (⟨2, ![1048576, 64]⟩ : Shape).Idx → EReal) (seg : (⟨1, ![1048576]⟩ : Shape).Idx → BitVec 32)
    (b d : Fin 64) (n : ℕ) : EReal :=
  hot (segAt seg n) b * rowAt X n d

/-- THE SEGMENT SUM: segment `b`'s sum of feature `d` over all rows. -/
def segSum (X : (⟨2, ![1048576, 64]⟩ : Shape).Idx → EReal) (seg : (⟨1, ![1048576]⟩ : Shape).Idx → BitVec 32)
    (b d : Fin 64) : EReal :=
  ∑ n ∈ Finset.range 1048576, term X seg b d n

/-- All 64 × 64 segment sums, as an array. -/
def segSums (X : (⟨2, ![1048576, 64]⟩ : Shape).Idx → EReal) (seg : (⟨1, ![1048576]⟩ : Shape).Idx → BitVec 32) :
    (⟨2, ![64, 64]⟩ : Shape).Idx → EReal :=
  fun i => segSum X seg (i 0) (i 1)

/-- The same sum over the rows as indices, each row's entry kept or dropped by its id. -/
theorem segSum_eq_sum_ite (X : (⟨2, ![1048576, 64]⟩ : Shape).Idx → EReal)
    (seg : (⟨1, ![1048576]⟩ : Shape).Idx → BitVec 32) (b d : Fin 64) :
    segSum X seg b d = ∑ n : Fin 1048576, if (seg (ix1 n)).toInt = (b.val : ℤ) then X (ix2 n d) else 0 := by
  unfold segSum
  rw [Finset.sum_range]
  refine Finset.sum_congr rfl fun n _ => ?_
  unfold term hot
  rw [segAt_lt seg n.isLt, rowAt_lt X n.isLt]
  by_cases h : (seg (ix1 n)).toInt = (b.val : ℤ)
  · rw [if_pos h, if_pos h, one_mul]
  · rw [if_neg h, if_neg h, zero_mul]

/-! ## The running accumulator -/

/-- What the accumulator holds after block `t`: the sum of the summand `w` over the rows from the last reset (block
    `16 · (t / 16)`) to the end of block `t`. -/
def accUpTo (w : ℕ → EReal) (t : ℕ) : EReal :=
  ∑ n ∈ Finset.range ((t % 16 + 1) * 32768), w (t / 16 * 16 * 32768 + n)

/-- One block's partial sum, over the block's rows as numbers. -/
theorem blockSum_range (w : ℕ → EReal) (t : ℕ) :
    ∑ k : Fin 32768, w (t * 32768 + k.val) = ∑ k ∈ Finset.range 32768, w (t * 32768 + k) :=
  (Finset.sum_range fun k => w (t * 32768 + k)).symm

/-- At a reset block the accumulator is zero plus that block's partial sum. -/
theorem accUpTo_reset (w : ℕ → EReal) (t : ℕ) (h : t % 16 = 0) :
    (0 : EReal) + ∑ k : Fin 32768, w (t * 32768 + k.val) = accUpTo w t := by
  unfold accUpTo
  have e0 : (t % 16 + 1) * 32768 = 32768 := by omega
  have e1 : t / 16 * 16 = t := by omega
  rw [zero_add, blockSum_range, e0, e1]

/-- At any other block it is what block `t - 1` left plus block `t`'s partial sum. -/
theorem accUpTo_step (w : ℕ → EReal) (t : ℕ) (h : ¬t % 16 = 0) :
    accUpTo w (t - 1) + ∑ k : Fin 32768, w (t * 32768 + k.val) = accUpTo w t := by
  unfold accUpTo
  have e1 : (t - 1) % 16 + 1 = t % 16 := by omega
  have e2 : (t - 1) / 16 = t / 16 := by omega
  have e3 : (t % 16 + 1) * 32768 = t % 16 * 32768 + 32768 := by rw [Nat.add_mul, Nat.one_mul]
  have e4 : ∀ x, t / 16 * 16 * 32768 + (t % 16 * 32768 + x) = t * 32768 + x := fun x => by
    rw [← Nat.add_assoc, ← Nat.add_mul, Nat.div_add_mod' t 16]
  rw [e1, e2, e3, Finset.sum_range_add, blockSum_range]
  simp only [e4]

/-- The two halves' accumulators, after blocks 15 and 31, add up to the sum over all rows. -/
theorem accUpTo_total (w : ℕ → EReal) :
    accUpTo w 15 + accUpTo w 31 = ∑ n ∈ Finset.range 1048576, w n := by
  unfold accUpTo
  have a : (15 % 16 + 1) * 32768 = 524288 := by norm_num
  have b : 15 / 16 * 16 * 32768 = 0 := by norm_num
  rw [a, b, show (1048576 : ℕ) = 524288 + 524288 from by norm_num, Finset.sum_range_add]
  simp only [zero_add]

end Cert.SegMean

end
-- ==== Proof.BlockReads.lean ====
/-
  What the two input windows show the body at grid point `t`, in terms of the argument arrays.

  The grid is 2 × 16 and point `t` (row-major) is half `t / 16`, step `t % 16`; both input index maps send it to
  block `16 · (t / 16) + t % 16 = t`. So the block of `x` at point `t` is rows `32768 t … 32768 t + 32767`, and
  the block of ids is the same stretch of the id row. That row is not an argument: before the region the host converts
  the integer ids to numbers (exactly: the signed integer as a real) and reshapes the vector to one row.
-/
import proofs.«415302_j49555332661495_3_alg».proof.Proof.Gen.KernelIdeal.Frame
import proofs.«415302_j49555332661495_3_alg».proof.Proof.SegmentSum
import Idealize.ShloMosaic.Lib.Pipeline.Value
import Idealize.ShloMosaic.Lib.ValueLayout
import Idealize.ShloMosaic.Lib.StableHlo.Run

set_option maxRecDepth 16384

noncomputable section

namespace Cert.KernelIdeal.BlockReads

open Cert.KernelIdeal Cert.KernelIdeal.Gen Idealize.ShloMosaic Idealize.ShloMosaic.TcCoe Idealize.SL.Sem
open Idealize.ShloMosaic.ValueIdx Cert.SegMean

variable (m : (ℓ : Loc nD τ sig) → Buf (Elt Ideal) ℓ)

/-- The argument `x` on core `c`. -/
abbrev xArr (c : Dev nD) : (⟨2, ![1048576, 64]⟩ : Shape).Idx → EReal := m ((c.tc : Thread nD τ).loc main_arg0)
/-- The argument `segment_ids` on core `c`. -/
abbrev idArr (c : Dev nD) : (⟨1, ![1048576]⟩ : Shape).Idx → BitVec 32 := m ((c.tc : Thread nD τ).loc main_arg1)

/-- Point `t`'s block of `x` and of the id row, at their literal shapes. -/
abbrev xBlock (c : Dev nD) (t : Fin cfg0.N) : Vec Ideal S32768x64 .f32 := iblk m c 0 t
abbrev idBlock (c : Dev nD) (t : Fin cfg0.N) : Vec Ideal S1x32768 .bf16 := iblk m c 1 t

/-- Both input index maps send point `t` to block `t`. -/
theorem xIndex : ∀ t : Fin cfg0.N, win0_0.index t 0 = t.val ∧ win0_0.index t 1 = 0 :=
  (by decide +kernel : ∀ t : Fin grid0.N, win0_0.index t 0 = t.val ∧ win0_0.index t 1 = 0)
theorem idIndex : ∀ t : Fin cfg0.N, win0_1.index t 0 = 0 ∧ win0_1.index t 1 = t.val :=
  (by decide +kernel : ∀ t : Fin grid0.N, win0_1.index t 0 = 0 ∧ win0_1.index t 1 = t.val)

theorem row_lt (t : Fin cfg0.N) (k : Fin 32768) : t.val * 32768 + k.val < 1048576 := by
  have ht : t.val < 32 := lt_of_lt_of_eq t.isLt (show cfg0.N = 32 from N_0)
  have hk := k.isLt
  omega

/-- The id row the region finds: each id as a number, the vector laid out as one row. -/
theorem idRow_eq (c : Dev nD) :
    (V m c main_call0_v1 : S1x1048576.Idx → EReal)
      = shapeCast S1x1048576 (sitofp .bf16 (idArr m c) : FVec Ideal S1048576 .bf16) shapeCasts_S1048576_S1x1048576 := by
  show StableHlo.after hostOps0 (fun b => m (c, b)) (Proc.devRef .tc main_call0_v1) = _
  after_results
  rfl

/-- Entry `(k, d)` of point `t`'s block of `x` is row `32768 t + k`, feature `d`. -/
theorem xBlock_at (c : Dev nD) (t : Fin cfg0.N) (k : Fin 32768) (d : Fin 64) :
    xBlock m c t (ix2 k d) = rowAt (xArr m c) (t.val * 32768 + k.val) d := by
  rw [rowAt_lt _ (row_lt t k)]
  show iblk m c 0 t (ix2 k d) = _
  unfold iblk
  rw [View.read_apply]
  show V m c main_arg0 _ = _
  rw [V_main_arg0]
  refine congrArg (m ((c.tc : Thread nD τ).loc main_arg0)) (funext fun a => Fin.ext ?_)
  match a with
  | ⟨0, _⟩ =>
    show win0_0.index t 0 * 32768 + 1 * k.val = t.val * 32768 + k.val
    rw [(xIndex t).1, Nat.one_mul]
  | ⟨1, _⟩ =>
    show win0_0.index t 1 * 64 + 1 * d.val = d.val
    rw [(xIndex t).2, Nat.zero_mul, Nat.zero_add, Nat.one_mul]

/-- Entry `k` of point `t`'s block of ids is row `32768 t + k`'s id, as a number. -/
theorem idBlock_at (c : Dev nD) (t : Fin cfg0.N) (k : Fin 32768) :
    idBlock m c t (ix2 (0 : Fin 1) k) = ((segAt (idArr m c) (t.val * 32768 + k.val) : ℝ) : EReal) := by
  rw [segAt_lt _ (row_lt t k)]
  show iblk m c 1 t (ix2 (0 : Fin 1) k) = _
  unfold iblk
  rw [View.read_apply]
  show V m c main_call0_v1 _ = _
  rw [idRow_eq]
  have hidx : ((cfg0.win 1).blk t).view.emb (ix2 (0 : Fin 1) k)
      = (ix2 (0 : Fin 1) (⟨t.val * 32768 + k.val, row_lt t k⟩ : Fin 1048576) : S1x1048576.Idx) :=
    funext fun a => Fin.ext (by
      match a with
      | ⟨0, _⟩ =>
        show win0_1.index t 0 * 1 + 1 * 0 = 0
        rw [(idIndex t).1]
      | ⟨1, _⟩ =>
        show win0_1.index t 1 * 32768 + 1 * k.val = t.val * 32768 + k.val
        rw [(idIndex t).2, Nat.one_mul])
  rw [hidx, shapeCast_a_1a_apply, sitofp_apply]
  rfl

/-- So one product of the body's membership-weighted sum at point `t` is row `32768 t + k`'s contribution to the
    segment sum. -/
theorem product_at (c : Dev nD) (t : Fin cfg0.N) (b d : Fin 64) (k : Fin 32768) :
    (if ((b.val : ℝ) : EReal) = idBlock m c t (ix2 (0 : Fin 1) k) then (1 : EReal) else 0) * xBlock m c t (ix2 k d)
      = term (xArr m c) (idArr m c) b d (t.val * 32768 + k.val) := by
  rw [idBlock_at, xBlock_at]
  unfold term hot
  by_cases h : segAt (idArr m c) (t.val * 32768 + k.val) = (b.val : ℤ)
  · rw [if_pos h, if_pos (by rw [h]; norm_cast)]
  · rw [if_neg h, if_neg (fun e => h (by
      have e' : ((b.val : ℤ) : ℝ) = (segAt (idArr m c) (t.val * 32768 + k.val) : ℝ) := by
        have := EReal.coe_injective e
        rw [← this]; norm_cast
      exact (Int.cast_injective e').symm))]

end Cert.KernelIdeal.BlockReads

end
-- ==== Proof.Accumulator.lean ====
/-
  The accumulator after every grid point, by induction on the point.

  After point `t` the scratch accumulator's entry `(b, d)` is the sum of the rows' contributions to segment `b`,
  feature `d`, over the rows from the start of `t`'s half up to the end of block `t` (`accUpTo`): at a half's first
  point the body updates zeros, at every other point what the point before left, and each update adds exactly block
  `t`'s contributions. The output block written at a half's last point is that accumulator.
-/
import proofs.«415302_j49555332661495_3_alg».proof.Proof.CaseValues
import proofs.«415302_j49555332661495_3_alg».proof.Proof.BodyValue
import proofs.«415302_j49555332661495_3_alg».proof.Proof.BlockReads

set_option maxRecDepth 16384

noncomputable section

namespace Cert.KernelIdeal.Accumulator

open Cert.KernelIdeal Cert.KernelIdeal.Gen Idealize.ShloMosaic Idealize.ShloMosaic.TcCoe Idealize.SL.Sem
open Idealize.ShloMosaic.ValueIdx Cert.SegMean
open Cert.KernelIdeal.BlockReads Cert.KernelIdeal.BodyValue Cert.KernelIdeal.CaseValues

variable (m : (ℓ : Loc nD τ sig) → Buf (Elt Ideal) ℓ)

/-- Row `n`'s contribution to segment `b`, feature `d`, of core `c`'s arguments. -/
abbrev contrib (c : Dev nD) (b d : Fin 64) : ℕ → EReal := term (xArr m c) (idArr m c) b d

/-- Block `t`'s membership-weighted sum is the sum of its rows' contributions. -/
theorem blockSum_eq (c : Dev nD) (t : Fin cfg0.N) (b d : Fin 64) :
    ∑ k : Fin 32768, (if ((b.val : ℝ) : EReal) = idBlock m c t (ix2 (0 : Fin 1) k) then (1 : EReal) else 0) * xBlock m c t (ix2 k d)
      = ∑ k : Fin 32768, contrib m c b d (t.val * 32768 + k.val) :=
  Finset.sum_congr rfl fun k _ => product_at m c t b d k

/-- THE INVARIANT: after point `n` the accumulator's entry `(b, d)` is the half's running sum up to block `n`. -/
theorem acc_eq (c : Dev nD) (b d : Fin 64) :
    ∀ (n : ℕ) (hn : n < cfg0.N), (outsAt0 m c n hn).2 (ix2 b d) = accUpTo (contrib m c b d) n := by
  intro n
  induction n with
  | zero =>
    intro hn
    rw [outsAt0_A m c ⟨0, hn⟩ (Nat.zero_mod _) (by show ¬(0 % 16 = 15); decide)]
    dsimp only
    refine (congrFun (acc_first (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) _ _ (xBlock m c ⟨0, hn⟩) (idBlock m c ⟨0, hn⟩)) (ix2 b d)).trans ?_
    refine (accumulate_at (idBlock m c ⟨0, hn⟩) (xBlock m c ⟨0, hn⟩) (k0_pay1 (F := Ideal)) b d).trans ?_
    rw [reset_at, blockSum_eq]
    exact accUpTo_reset (contrib m c b d) 0 (Nat.zero_mod _)
  | succ n ih =>
    intro hn
    have hN : n + 1 < 32 := lt_of_lt_of_eq hn (show cfg0.N = 32 from N_0)
    by_cases h0 : (n + 1) % 16 = 0
    · have h1 : ¬(n + 1) % 16 = 15 := by omega
      rw [outsAt0_A m c ⟨n + 1, hn⟩ h0 h1]
      dsimp only
      refine (congrFun (acc_first (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) _ _ (xBlock m c ⟨n + 1, hn⟩) (idBlock m c ⟨n + 1, hn⟩)) (ix2 b d)).trans ?_
      refine (accumulate_at (idBlock m c ⟨n + 1, hn⟩) (xBlock m c ⟨n + 1, hn⟩) (k0_pay1 (F := Ideal)) b d).trans ?_
      rw [reset_at, blockSum_eq]
      exact accUpTo_reset (contrib m c b d) (n + 1) h0
    · have hprev := ih (Nat.lt_of_succ_lt hn)
      by_cases h1 : (n + 1) % 16 = 15
      · rw [outsAt0_C m c ⟨n + 1, hn⟩ h0 h1]
        dsimp only
        refine (congrFun (acc_last (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) _ _ (xBlock m c ⟨n + 1, hn⟩) (idBlock m c ⟨n + 1, hn⟩) (outsAt0 m c n (Nat.lt_of_succ_lt hn)).2) (ix2 b d)).trans ?_
        refine (accumulate_at (idBlock m c ⟨n + 1, hn⟩) (xBlock m c ⟨n + 1, hn⟩) (outsAt0 m c n (Nat.lt_of_succ_lt hn)).2 b d).trans ?_
        rw [hprev, blockSum_eq]
        exact accUpTo_step (contrib m c b d) (n + 1) h0
      · rw [outsAt0_B m c ⟨n + 1, hn⟩ h0 h1]
        dsimp only
        refine (congrFun (acc_middle (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) _ _ (xBlock m c ⟨n + 1, hn⟩) (idBlock m c ⟨n + 1, hn⟩) (outsAt0 m c n (Nat.lt_of_succ_lt hn)).2) (ix2 b d)).trans ?_
        refine (accumulate_at (idBlock m c ⟨n + 1, hn⟩) (xBlock m c ⟨n + 1, hn⟩) (outsAt0 m c n (Nat.lt_of_succ_lt hn)).2 b d).trans ?_
        rw [hprev, blockSum_eq]
        exact accUpTo_step (contrib m c b d) (n + 1) h0

/-- At a half's last point the output block holds the accumulator: entry `(0, b, d)` is the half's whole sum. -/
theorem out_eq (c : Dev nD) (t : Fin cfg0.N) (h1 : t.val % 16 = 15) (u : Fin 1) (b d : Fin 64) :
    (outsAt0 m c t.val t.isLt).1 (ix3 u b d) = accUpTo (contrib m c b d) t.val := by
  have h0 : ¬t.val % 16 = 0 := by omega
  have hpos : 0 < t.val := by omega
  rw [outsAt0_C m c t h0 h1]
  dsimp only
  refine (congrFun (out_last (F := Ideal) c (grid0.coords t) (ms0_0 t) (hs0_0 t) (ms0_1 t) (hs0_1 t) (ms0_2 t) (hs0_2 t) scM0_0 (Memref.isWhole_whole _) _ _ (xBlock m c t) (idBlock m c t) (outsAt0 m c (t.val - 1) (Nat.lt_of_le_of_lt (Nat.sub_le _ _) t.isLt)).2) (ix3 u b d)).trans ?_
  refine (writeout_at _ u b d).trans ?_
  refine (accumulate_at (idBlock m c t) (xBlock m c t) (outsAt0 m c (t.val - 1) (Nat.lt_of_le_of_lt (Nat.sub_le _ _) t.isLt)).2 b d).trans ?_
  rw [acc_eq m c b d (t.val - 1) _, blockSum_eq]
  exact accUpTo_step (contrib m c b d) t.val h0

end Cert.KernelIdeal.Accumulator

end
-- ==== Proof.KernelValue.lean ====
/-
  What the kernel program's result array holds after its run, over the extended reals.

  The region writes a 2 × 64 × 64 array: plane `h` is half `h`'s accumulator after its last block, that is the sum
  of the contributions of rows `524288 h … 524288 h + 524287` (`halves`). Each plane is written once, by the one
  write-back at point `16 h + 15`, and the two planes cover the array. After the region the host adds the two planes —
  the two half sums make the whole segment sum — and divides by the lengths, converted to numbers and broadcast along
  the features.
-/
import proofs.«415302_j49555332661495_3_alg».proof.Proof.Accumulator
import Idealize.ShloMosaic.Lib.Pipeline.Value
import Idealize.ShloMosaic.Lib.ValueLayout
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.Pipeline (Dat)
open Idealize.ShloMosaic.ValueIdx Cert.SegMean
open Cert.KernelIdeal.BlockReads Cert.KernelIdeal.Accumulator

variable (m : (ℓ : Loc nD τ sig) → Buf (Elt Ideal) ℓ) (ρ : Dev nD → PrngReg)

/-! ## The region's output array -/

/-- Plane `h` of the region's output: half `h`'s sums. -/
def halves (c : Dev nD) : (⟨3, ![2, 64, 64]⟩ : Shape).Idx → EReal :=
  fun i => accUpTo (contrib m c (i 1) (i 2)) (16 * (i 0).val + 15)

/-- The output index map sends point `t` to plane `t / 16`. -/
theorem outIndex : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)

/-- Its blocks are whole planes at every point. -/
theorem outExtent : ∀ t : Fin cfg0.N, win0_2.xsize (grid0.coords t) 0 = 1 ∧ win0_2.xsize (grid0.coords t) 1 = 64
    ∧ win0_2.xsize (grid0.coords t) 2 = 64 :=
  (by decide +kernel : ∀ t : Fin grid0.N, win0_2.xsize (grid0.coords t) 0 = 1 ∧ win0_2.xsize (grid0.coords t) 1 = 64
    ∧ win0_2.xsize (grid0.coords t) 2 = 64)

/-- What a half's last point leaves in the output block is that half's plane. -/
theorem plane_at (c : Dev nD) (t : Fin cfg0.N) (h1 : t.val % 16 = 15) (u : Fin 1) (b d : Fin 64) :
    (outsAt0 m c t.val t.isLt).1 (ix3 u b d) = halves m c (((cfg0.win 2).blk t).view.emb (ix3 u b d)) := by
  have ht : t.val < 32 := lt_of_lt_of_eq t.isLt (show cfg0.N = 32 from N_0)
  have hemb : ((cfg0.win 2).blk t).view.emb (ix3 u b d)
      = (ix3 (⟨t.val / 16, by omega⟩ : Fin 2) b d : S2x64x64.Idx) :=
    funext fun a => Fin.ext (by
      have hu : u.val = 0 := by omega
      match a with
      | ⟨0, _⟩ =>
        show win0_2.index t 0 * 1 + 1 * u.val = t.val / 16
        rw [(outIndex t).1, hu, Nat.mul_one, Nat.mul_zero, Nat.add_zero]
      | ⟨1, _⟩ =>
        show win0_2.index t 1 * 64 + 1 * b.val = b.val
        rw [(outIndex t).2.1, Nat.zero_mul, Nat.zero_add, Nat.one_mul]
      | ⟨2, _⟩ =>
        show win0_2.index t 2 * 64 + 1 * d.val = d.val
        rw [(outIndex t).2.2, Nat.zero_mul, Nat.zero_add, Nat.one_mul])
  rw [hemb, out_eq m c t h1 u b d]
  show _ = accUpTo (contrib m c b d) (16 * (t.val / 16) + 15)
  rw [show 16 * (t.val / 16) + 15 = t.val from by omega]

/-- The write-back at a half's last point writes that half's plane of `halves`. -/
theorem flushed_eq (c : Dev nD) (t : Fin cfg0.N) (hf : (cfg0.win 2).flush t = true) :
    (dats m 0 c).flushed 2 t = ((cfg0.win 2).blk t).view.read (Elt Ideal) (halves m c) := by
  have h1 : t.val % 16 = 15 := (flush0_2 t).mp hf
  show (cfg0.win 2).cut (grid0.coords t) ((dats m 0 c).after 2 t) = _
  rw [after0_2]
  funext (y : S1x64x64.Idx)
  obtain ⟨u, b, d, rfl⟩ : ∃ (u : Fin 1) (b : Fin 64) (d : Fin 64), y = ix3 u b d := ⟨y 0, y 1, y 2, eq_ix3 y⟩
  rw [View.read_apply]
  exact plane_at m c t h1 u b d

/-- The two write-backs cover the array: index `(h, b, d)` lies in the block of point `16 h + 15`. -/
theorem covered (i : S2x64x64.Idx) :
    ∃ t : Fin cfg0.N, (cfg0.win 2).flush t = true ∧ i ∈ ((cfg0.win 2).blk t).view.set := by
  have h0 : (i 0).val < 2 := (i 0).isLt
  have h1 : (i 1).val < 64 := (i 1).isLt
  have h2 : (i 2).val < 64 := (i 2).isLt
  have hN : 16 * (i 0).val + 15 < cfg0.N := by rw [show cfg0.N = 32 from N_0]; omega
  refine ⟨⟨16 * (i 0).val + 15, hN⟩, (flush0_2 _).mpr (by show (16 * (i 0).val + 15) % 16 = 15; omega), ?_⟩
  show i ∈ ((View.whole main_call0_v2).slice (win0_2.rect ⟨16 * (i 0).val + 15, hN⟩)).set
  rw [View.set_slice_whole, Rect.mem_set_unit]
  intro a
  have hi := outIndex ⟨16 * (i 0).val + 15, hN⟩
  have hx := outExtent ⟨16 * (i 0).val + 15, hN⟩
  match a with
  | ⟨0, _⟩ =>
    show win0_2.index ⟨16 * (i 0).val + 15, hN⟩ 0 * 1 ≤ (i 0 : ℕ)
      ∧ (i 0 : ℕ) < win0_2.index ⟨16 * (i 0).val + 15, hN⟩ 0 * 1 + win0_2.xsize (grid0.coords ⟨16 * (i 0).val + 15, hN⟩) 0
    rw [hi.1, hx.1]
    show (16 * (i 0).val + 15) / 16 * 1 ≤ (i 0 : ℕ) ∧ (i 0 : ℕ) < (16 * (i 0).val + 15) / 16 * 1 + 1
    omega
  | ⟨1, _⟩ =>
    show win0_2.index ⟨16 * (i 0).val + 15, hN⟩ 1 * 64 ≤ (i 1 : ℕ)
      ∧ (i 1 : ℕ) < win0_2.index ⟨16 * (i 0).val + 15, hN⟩ 1 * 64 + win0_2.xsize (grid0.coords ⟨16 * (i 0).val + 15, hN⟩) 1
    rw [hi.2.1, hx.2.1]
    omega
  | ⟨2, _⟩ =>
    show win0_2.index ⟨16 * (i 0).val + 15, hN⟩ 2 * 64 ≤ (i 2 : ℕ)
      ∧ (i 2 : ℕ) < win0_2.index ⟨16 * (i 0).val + 15, hN⟩ 2 * 64 + win0_2.xsize (grid0.coords ⟨16 * (i 0).val + 15, hN⟩) 2
    rw [hi.2.2, hx.2.2]
    omega

/-- So the region's output array ends holding the two halves' sums. -/
theorem output_eq (c : Dev nD) : (dats m 0 c).arrAt 2 cfg0.N = halves m c :=
  (dats m 0 c).arrAt_eq_of_cover 2 (halves m c) (flushed_eq m c) covered

/-! ## After the region -/

/-- The two planes added. -/
def joined (A : FVec Ideal S2x64x64 .f32) : FVec Ideal S64x64 .f32 :=
  addf (shapeCast S64x64 (extractStridedSlice S1x64x64 ![0, 0, 0] A slices_S2x64x64_S1x64x64_0_0_0) shapeCasts_S1x64x64_S64x64)
    (shapeCast S64x64 (extractStridedSlice S1x64x64 ![1, 0, 0] A slices_S2x64x64_S1x64x64_1_0_0) shapeCasts_S1x64x64_S64x64)

/-- The division of per-segment sums by the lengths, the lengths converted to numbers and broadcast along the features. -/
def meanOf (S : FVec Ideal S64x64 .f32) (len : IVec S64 32) : FVec Ideal S64x64 .f32 :=
  Host.divf (F := Ideal) S
    (broadcastInDim S64x64 ![0, 1] bcast_S64x1_S64x64_0_1 (broadcastInDim S64x1 ![0] bcast_S64_S64x1_0 (sitofp (F := Ideal) .f32 len)))

/-- The two half sums add up to the segment sums. -/
theorem joined_halves (c : Dev nD) : joined (halves m c) = segSums (xArr m c) (idArr m c) := by
  funext i
  obtain ⟨b, d, rfl⟩ : ∃ (b : Fin 64) (d : Fin 64), i = ix2 b d := ⟨i 0, i 1, eq_ix2 i⟩
  unfold joined
  rw [addf_apply, shapeCast_1ab_ab_apply, shapeCast_1ab_ab_apply,
    extractStridedSlice_apply ![0, 0, 0] (halves m c) slices_S2x64x64_S1x64x64_0_0_0 (ix3 (0 : Fin 1) b d) (ix3 (0 : Fin 2) b d)
      (fun a => by match a with | ⟨0, _⟩ => rfl | ⟨1, _⟩ => (show b.val = 0 + b.val; omega) | ⟨2, _⟩ => (show d.val = 0 + d.val; omega)),
    extractStridedSlice_apply ![1, 0, 0] (halves m c) slices_S2x64x64_S1x64x64_1_0_0 (ix3 (0 : Fin 1) b d) (ix3 (1 : Fin 2) b d)
      (fun a => by match a with | ⟨0, _⟩ => rfl | ⟨1, _⟩ => (show b.val = 0 + b.val; omega) | ⟨2, _⟩ => (show d.val = 0 + d.val; omega))]
  show accUpTo (contrib m c b d) (16 * 0 + 15) + accUpTo (contrib m c b d) (16 * 1 + 15) = segSum (xArr m c) (idArr m c) b d
  exact accUpTo_total (contrib m c b d)

/-- The host lines after the region, applied to what the region left. -/
theorem tail_eq (c : Dev nD) :
    Pipeline.afterTail₀ cfgs (dats m) 0 (V0 m) [hostOps1] c main_v0
      = meanOf (joined (Pipeline.withArrays (cfgs 0).spec c (V0 m c) (fun w => (dats m 0 c).arrAt w (cfgs 0).N) (Proc.devRef .tc main_call0_v2)))
          (Pipeline.withArrays (cfgs 0).spec c (V0 m c) (fun w => (dats m 0 c).arrAt w (cfgs 0).N) (Proc.devRef .tc main_arg2)) := by
  unfold Pipeline.afterTail₀
  show StableHlo.after hostOps1 _ (Proc.devRef .tc main_v0) = _
  after_results
  rfl

/-- THE RESULT: the segment sums of the arguments divided by the lengths. -/
theorem result_eq (c : Dev nD) :
    Pipeline.afterTail₀ cfgs (dats m) 0 (V0 m) [hostOps1] c main_v0
      = meanOf (segSums (xArr m c) (idArr m c)) (m ((c.tc : Thread nD τ).loc main_arg2)) := by
  rw [tail_eq,
    show Pipeline.withArrays (cfgs 0).spec c (V0 m c) (fun w => (dats m 0 c).arrAt w (cfgs 0).N) (Proc.devRef .tc main_call0_v2)
        = halves m c from (Pipeline.withArrays_arr spec0 launch0.win.arr_inj c _ _ 2).trans (output_eq m c),
    show Pipeline.withArrays (cfgs 0).spec c (V0 m c) (fun w => (dats m 0 c).arrAt w (cfgs 0).N) (Proc.devRef .tc main_arg2)
        = m ((c.tc : Thread nD τ).loc main_arg2) from
      (Pipeline.withArrays_of_ne _ c (V0 m c) _ main_arg2 (by exact (by decide : ∀ w, Pipeline.arrRef spec0 w ≠ main_arg2))).trans
        (V_main_arg2 m c),
    joined_halves]

/-- The kernel program's run, read: the result at the segment means, the arguments unchanged. -/
theorem run : θ_run defs (onTc (τ := τ) (main (F := Ideal))) ⟨m, fun _ => 0, ρ⟩ fun r => ∀ c : Dev nD,
      r.2.mem ((c.tc : Thread nD τ).loc main_v0) = meanOf (segSums (xArr m c) (idArr m c)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v0 (Pipeline.mem_restRefs_of main_v0 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.ScatterRead.lean ====
/-
  The reference's accumulating scatter, read at an index.

  `segment_sum` lowers to a scatter of the rows of `x` into a zero 64 × 64 array with an `add` body: update element
  `(n, d')` lands on operand element `(id n, d')` — the row is the start index read off the ids (signed, not
  clamped), the column is the window coordinate — and is dropped when `id n` is not in `0 … 63`. Over the extended
  reals the result at `(b, d)` is therefore zero plus the sum of `x n d` over the rows `n` whose id is `b`: the segment
  sum.
-/
import proofs.«415302_j49555332661495_3_alg».proof.Proof.Gen.ReferenceIdeal.Read
import proofs.«415302_j49555332661495_3_alg».proof.Proof.SegmentSum
import Idealize.ShloMosaic.PureOps.Ideal.Laws

noncomputable section

namespace Cert.ReferenceIdeal.ScatterRead

open Cert.ReferenceIdeal Cert.ReferenceIdeal.Gen Cert.ReferenceIdeal.Read Idealize.ShloMosaic Idealize.ShloMosaic.ValueIdx
open Cert.SegMean

variable (idx : IVec S1048576x1 32)

/-! ## Where an update lands, axis by axis -/

theorem start_row (j : S1048576x64.Idx) :
    scatter_S64x64_S1048576x1_S1048576x64_1_0_0_1.start j idx 0 = (idx (ix2 (j 0) (0 : Fin 1))).toInt := by
  unfold ScatterDims.start
  rw [dif_pos (show (0 : Fin S64x64.rank) ∈ scatter_S64x64_S1048576x1_S1048576x64_1_0_0_1.scatterDimsToOperandDims by decide)]
  refine congrArg (fun i => (idx i).toInt) (funext fun a => Fin.ext ?_)
  match a with
  | ⟨0, _⟩ => rfl
  | ⟨1, _⟩ => rfl

theorem start_col (j : S1048576x64.Idx) : scatter_S64x64_S1048576x1_S1048576x64_1_0_0_1.start j idx 1 = 0 := by
  unfold ScatterDims.start
  rw [dif_neg (show ¬(1 : Fin S64x64.rank) ∈ scatter_S64x64_S1048576x1_S1048576x64_1_0_0_1.scatterDimsToOperandDims by decide)]

theorem window_row (j : S1048576x64.Idx) : scatter_S64x64_S1048576x1_S1048576x64_1_0_0_1.window j 0 = 0 := by
  unfold ScatterDims.window
  rw [dif_neg (show ¬(0 : Fin S64x64.rank) ∈ scatter_S64x64_S1048576x1_S1048576x64_1_0_0_1.sKept by decide)]

theorem window_col (j : S1048576x64.Idx) : scatter_S64x64_S1048576x1_S1048576x64_1_0_0_1.window j 1 = (j 1).val := by
  unfold ScatterDims.window
  rw [dif_pos (show (1 : Fin S64x64.rank) ∈ scatter_S64x64_S1048576x1_S1048576x64_1_0_0_1.sKept by decide)]
  rfl

/-- Update element `(n, d')` lands on `(b, d)` exactly when row `n`'s id is `b` and `d' = d`. -/
theorem lands_iff (n : Fin 1048576) (d' b d : Fin 64) :
    scatter_S64x64_S1048576x1_S1048576x64_1_0_0_1.resultIdx? (ix2 n d' : S1048576x64.Idx) idx = some (ix2 b d : S64x64.Idx)
      ↔ (idx (ix2 n (0 : Fin 1))).toInt = (b.val : ℤ) ∧ d' = d := by
  have s0 : scatter_S64x64_S1048576x1_S1048576x64_1_0_0_1.start (ix2 n d') idx 0 + (scatter_S64x64_S1048576x1_S1048576x64_1_0_0_1.window (ix2 n d') 0 : ℤ) = (idx (ix2 n (0 : Fin 1))).toInt := by
    rw [start_row, window_row]; simp
  have s1 : scatter_S64x64_S1048576x1_S1048576x64_1_0_0_1.start (ix2 n d') idx 1 + (scatter_S64x64_S1048576x1_S1048576x64_1_0_0_1.window (ix2 n d') 1 : ℤ) = (d'.val : ℤ) := by
    rw [start_col, window_col]; simp
  have hb := b.isLt
  have hd := d.isLt
  have hd' := d'.isLt
  unfold ScatterDims.resultIdx?
  constructor
  · intro h
    split at h
    · rename_i hall
      have e := Option.some.inj h
      have e0 : (scatter_S64x64_S1048576x1_S1048576x64_1_0_0_1.start (ix2 n d') idx 0 + (scatter_S64x64_S1048576x1_S1048576x64_1_0_0_1.window (ix2 n d') 0 : ℤ)).toNat = b.val :=
        congrArg (fun i : S64x64.Idx => (i 0).val) e
      have e1 : (scatter_S64x64_S1048576x1_S1048576x64_1_0_0_1.start (ix2 n d') idx 1 + (scatter_S64x64_S1048576x1_S1048576x64_1_0_0_1.window (ix2 n d') 1 : ℤ)).toNat = d.val :=
        congrArg (fun i : S64x64.Idx => (i 1).val) e
      have h0 := (hall 0).1
      rw [s0] at e0 h0
      rw [s1] at e1
      exact ⟨by omega, Fin.ext (by omega)⟩
    · exact absurd h (by simp)
  · rintro ⟨hz, rfl⟩
    have hall : ∀ a, 0 ≤ scatter_S64x64_S1048576x1_S1048576x64_1_0_0_1.start (ix2 n d') idx a + (scatter_S64x64_S1048576x1_S1048576x64_1_0_0_1.window (ix2 n d') a : ℤ)
        ∧ scatter_S64x64_S1048576x1_S1048576x64_1_0_0_1.start (ix2 n d') idx a + (scatter_S64x64_S1048576x1_S1048576x64_1_0_0_1.window (ix2 n d') a : ℤ) < S64x64.size a := by
      intro a
      match a with
      | ⟨0, _⟩ =>
        show 0 ≤ scatter_S64x64_S1048576x1_S1048576x64_1_0_0_1.start (ix2 n d') idx 0 + (scatter_S64x64_S1048576x1_S1048576x64_1_0_0_1.window (ix2 n d') 0 : ℤ)
          ∧ scatter_S64x64_S1048576x1_S1048576x64_1_0_0_1.start (ix2 n d') idx 0 + (scatter_S64x64_S1048576x1_S1048576x64_1_0_0_1.window (ix2 n d') 0 : ℤ) < ((64 : ℕ) : ℤ)
        rw [s0, hz]; omega
      | ⟨1, _⟩ =>
        show 0 ≤ scatter_S64x64_S1048576x1_S1048576x64_1_0_0_1.start (ix2 n d') idx 1 + (scatter_S64x64_S1048576x1_S1048576x64_1_0_0_1.window (ix2 n d') 1 : ℤ)
          ∧ scatter_S64x64_S1048576x1_S1048576x64_1_0_0_1.start (ix2 n d') idx 1 + (scatter_S64x64_S1048576x1_S1048576x64_1_0_0_1.window (ix2 n d') 1 : ℤ) < ((64 : ℕ) : ℤ)
        rw [s1]; omega
    rw [dif_pos hall]
    refine congrArg some (funext fun a => Fin.ext ?_)
    match a with
    | ⟨0, _⟩ =>
      show (scatter_S64x64_S1048576x1_S1048576x64_1_0_0_1.start (ix2 n d') idx 0 + (scatter_S64x64_S1048576x1_S1048576x64_1_0_0_1.window (ix2 n d') 0 : ℤ)).toNat = b.val
      rw [s0, hz]; omega
    | ⟨1, _⟩ =>
      show (scatter_S64x64_S1048576x1_S1048576x64_1_0_0_1.start (ix2 n d') idx 1 + (scatter_S64x64_S1048576x1_S1048576x64_1_0_0_1.window (ix2 n d') 1 : ℤ)).toNat = d'.val
      rw [s1]; omega

/-- The updates landing on `(b, d)`, summed: one per row whose id is `b`. -/
theorem landed_sum (X : S1048576x64.Idx → EReal) (b d : Fin 64)
    [DecidablePred fun j : S1048576x64.Idx => scatter_S64x64_S1048576x1_S1048576x64_1_0_0_1.resultIdx? j idx = some (ix2 b d : S64x64.Idx)] :
    ∑ j ∈ Finset.univ.filter (fun j : S1048576x64.Idx => scatter_S64x64_S1048576x1_S1048576x64_1_0_0_1.resultIdx? j idx = some (ix2 b d : S64x64.Idx)), X j
      = ∑ n : Fin 1048576, if (idx (ix2 n (0 : Fin 1))).toInt = (b.val : ℤ) then X (ix2 n d) else 0 := by
  rw [Finset.sum_filter, sum_idx2]
  refine Finset.sum_congr rfl fun n _ => ?_
  by_cases hz : (idx (ix2 n (0 : Fin 1))).toInt = (b.val : ℤ)
  · rw [if_pos hz, Finset.sum_eq_single d]
    · rw [if_pos ((lands_iff idx n d b d).mpr ⟨hz, rfl⟩)]
    · intro d' _ hne
      rw [if_neg (fun h => hne ((lands_iff idx n d' b d).mp h).2)]
    · intro h
      exact absurd (Finset.mem_univ d) h
  · rw [if_neg hz]
    exact Finset.sum_eq_zero fun d' _ => if_neg (fun h => hz ((lands_iff idx n d' b d).mp h).1)

/-- The accumulating scatter at `(b, d)`, for any operand `Z`: its entry plus the rows whose id is `b`. -/
theorem hostScatterAdd_at (Z : S64x64.Idx → EReal) (X : S1048576x64.Idx → EReal) (b d : Fin 64) :
    Ideal.hostScatterAdd scatter_S64x64_S1048576x1_S1048576x64_1_0_0_1 Z idx X (ix2 b d)
      = Z (ix2 b d) + ∑ n : Fin 1048576, if (idx (ix2 n (0 : Fin 1))).toInt = (b.val : ℤ) then X (ix2 n d) else 0 := by
  unfold Ideal.hostScatterAdd
  rw [landed_sum]

/-- The operand scattered into is all zeros. -/
theorem zeros_at (i : S64x64.Idx) : val_main_v0 (F := Ideal) i = 0 := by
  rw [val_main_v0_apply, val_main_cst_apply]
  exact Ideal.ofBits_zero_f32

/-- The scatter indices are the ids as a column. -/
theorem ids_at (seg : IVec S1048576 32) (n : Fin 1048576) :
    val_main_v1 (F := Ideal) seg (ix2 n (0 : Fin 1)) = seg (ix1 n) := by
  rw [val_main_v1_apply]
  exact congrArg seg (funext fun a => by match a with | ⟨0, _⟩ => rfl)

/-- The reference's scatter stage is the exact accumulating scatter of the zeros, the id column and `x`. -/
theorem scatter_eq (X : S1048576x64.Idx → EReal) (seg : IVec S1048576 32) :
    val_main_v2 (F := Ideal) X seg
      = Ideal.hostScatterAdd scatter_S64x64_S1048576x1_S1048576x64_1_0_0_1 (val_main_v0 (F := Ideal)) (val_main_v1 (F := Ideal) seg) X := rfl

/-- THE SCATTER at `(b, d)`: the segment sum of the argument arrays. -/
theorem scatter_at (X : S1048576x64.Idx → EReal) (seg : IVec S1048576 32) (b d : Fin 64) :
    val_main_v2 (F := Ideal) X seg (ix2 b d) = segSum X seg b d := by
  refine (congrFun (scatter_eq X seg) (ix2 b d)).trans ?_
  rw [hostScatterAdd_at, zeros_at, zero_add]
  simp only [ids_at]
  exact (segSum_eq_sum_ite X seg b d).symm

end Cert.ReferenceIdeal.ScatterRead

end
-- ==== Proof.ReferenceValue.lean ====
/-
  The reference's result, as the same function of the arguments as the kernel's.

  The reference scatters the rows of `x` into zeros by their ids — the segment sums — and divides by the lengths,
  converted to numbers and broadcast along the features: the very division the kernel program's host lines perform on
  its own sums. So both results are `meanOf (segSums x ids) lengths`.
-/
import proofs.«415302_j49555332661495_3_alg».proof.Proof.ScatterRead
import proofs.«415302_j49555332661495_3_alg».proof.Proof.KernelValue

noncomputable section

namespace Cert.ReferenceIdeal.RefValue

open Idealize.ShloMosaic Idealize.ShloMosaic.ValueIdx Cert.SegMean
open Cert.ReferenceIdeal Cert.ReferenceIdeal.Gen Cert.ReferenceIdeal.Read

/-- The scatter stage is the array of segment sums. -/
theorem sums_eq (X : S1048576x64.Idx → EReal) (seg : IVec S1048576 32) :
    val_main_v2 (F := Ideal) X seg = segSums X seg := by
  funext i
  obtain ⟨b, d, rfl⟩ : ∃ (b : Fin 64) (d : Fin 64), i = ix2 b d := ⟨i 0, i 1, eq_ix2 i⟩
  exact Cert.ReferenceIdeal.ScatterRead.scatter_at X seg b d

/-- The reference's result term is the segment sums divided by the lengths. -/
theorem result_eq (X : S1048576x64.Idx → EReal) (seg : IVec S1048576 32) (len : IVec S64 32) :
    Host.divf (Host.scatterAdd scatter_S64x64_S1048576x1_S1048576x64_1_0_0_1
        (broadcastInDim S64x64 ![] bcast_S_S64x64 (constant (F := Ideal) S_ .f32 0x00000000#32))
        (broadcastInDim S1048576x1 ![0] bcast_S1048576_S1048576x1_0 seg) X)
      (broadcastInDim S64x64 ![0, 1] bcast_S64x1_S64x64_0_1 (broadcastInDim S64x1 ![0] bcast_S64_S64x1_0 (sitofp (F := Ideal) .f32 len)))
      = Cert.KernelIdeal.KernelValue.meanOf (segSums X seg) len := by
  refine (val_main_v6_eq (F := Ideal) X seg len).trans ?_
  refine (show val_main_v6 (F := Ideal) X seg len = Host.divf (F := Ideal) (val_main_v2 (F := Ideal) X seg) (val_main_v5 (F := Ideal) len) from rfl).trans ?_
  rw [sums_eq]
  rfl

end Cert.ReferenceIdeal.RefValue

end
-- ==== Proof.lean ====
/-
  The segmented mean, two ways: the certificate's five claims.

  The reference sums the rows of `x` into 64 segments by their ids in one scatter and divides each segment's sum by
  its length. The kernel walks the rows in 32 blocks of 32768, two halves of 16: per block it multiplies a 0/1
  membership matrix into the block and adds the product to a per-half accumulator; the two halves' accumulators are
  added after the region and divided by the same lengths. Over the extended reals the membership product is the
  block's rows filtered by id, sums regroup freely, and the two results are one function of the arguments:
  the segment sums divided by the lengths (`meanOf (segSums x ids) lengths`).

  The three frames: the two kernel programs' are the generated frame runs; the reference's is its generated run with
  the result dropped. The ideal pass rewrote nothing, so `preserves` is trivial.
-/
import proofs.«415302_j49555332661495_3_alg».proof.Defs
import proofs.«415302_j49555332661495_3_alg».proof.Proof.Gen.Kernel
import proofs.«415302_j49555332661495_3_alg».proof.Proof.Gen.Kernel.Skeleton
import proofs.«415302_j49555332661495_3_alg».proof.Proof.Gen.Kernel.Launch
import proofs.«415302_j49555332661495_3_alg».proof.Proof.Gen.Kernel.Points
import proofs.«415302_j49555332661495_3_alg».proof.Proof.Gen.Kernel.Frame
import proofs.«415302_j49555332661495_3_alg».proof.Proof.Gen.KernelIdeal
import proofs.«415302_j49555332661495_3_alg».proof.Proof.Gen.KernelIdeal.Skeleton
import proofs.«415302_j49555332661495_3_alg».proof.Proof.Gen.KernelIdeal.Launch
import proofs.«415302_j49555332661495_3_alg».proof.Proof.Gen.KernelIdeal.Points
import proofs.«415302_j49555332661495_3_alg».proof.Proof.Gen.KernelIdeal.Frame
import proofs.«415302_j49555332661495_3_alg».proof.Proof.Gen.ReferenceIdeal
import proofs.«415302_j49555332661495_3_alg».proof.Proof.Gen.ReferenceIdeal.Run
import proofs.«415302_j49555332661495_3_alg».proof.Proof.Gen.ReferenceIdeal.Read
import proofs.«415302_j49555332661495_3_alg».proof.Proof.Gen.Pre_finite_inputs
import proofs.«415302_j49555332661495_3_alg».proof.Proof.KernelValue
import proofs.«415302_j49555332661495_3_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result at the segment sums of the arguments divided by the lengths: the
    kernel's by its run read back, the reference's by its run and the scatter read at an index. -/
theorem algebraic : Cert.algebraic_KernelIdeal_ReferenceIdeal := by
  intro m ρ m' ρ' _ hagree
  refine ⟨fun c => Cert.KernelIdeal.KernelValue.meanOf
      (Cert.SegMean.segSums (Cert.KernelIdeal.BlockReads.xArr m c) (Cert.KernelIdeal.BlockReads.idArr m c))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
